-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x256x3 : Shape := ⟨4, ![128, 256, 256, 3]⟩
abbrev S_ : Shape := ⟨0, ![]⟩

class Facts : Prop where
  bcast_S_S128x256x256x3 : S_.BroadcastsInDim S128x256x256x3 (![] : Fin 0 → Fin S128x256x256x3.rank)
  reducesTo_S128x256x256x3_S_d0_1_2_3 : S128x256x256x3.ReducesTo [0, 1, 2, 3] S_
  h_S_ : 0 < S_.numel

variable [Facts]

def fn {F : FTy → Type} [FloatOps F] (main_arg0 : FVec F S128x256x256x3 .f32) : IVec S_ 1 :=
  let main_v0 : FVec F S128x256x256x3 .f32 := Host.absf main_arg0
  let main_cst : FVec F S_ .f32 := constant S_ .f32 0x7F800000#32
  let main_v1 : FVec F S128x256x256x3 .f32 := broadcastInDim S128x256x256x3 ![] bcast_S_S128x256x256x3 main_cst
  let main_v2 : IVec S128x256x256x3 1 := cmpf .olt main_v0 main_v1
  let main_c : IVec S_ 1 := constantI S_ 1 1#1
  let main_v3 : IVec S_ 1 := (fun x v => Host.reduce IntOp.andi x v reducesTo_S128x256x256x3_S_d0_1_2_3 h_S_) main_v2 main_c
  main_v3
-- ==== Kernel.lean ====
abbrev S128x256x256x3 : Shape := ⟨4, ![128, 256, 256, 3]⟩
abbrev S128x32x8x32x24 : Shape := ⟨5, ![128, 32, 8, 32, 24]⟩
abbrev S128x32x32x8x24 : Shape := ⟨5, ![128, 32, 32, 8, 24]⟩
abbrev S1x32x8x32x24 : Shape := ⟨5, ![1, 32, 8, 32, 24]⟩
abbrev S1x32x32x8x24 : Shape := ⟨5, ![1, 32, 32, 8, 24]⟩
abbrev S1x32x1x32x24 : Shape := ⟨5, ![1, 32, 1, 32, 24]⟩
abbrev S32x32x24 : Shape := ⟨3, ![32, 32, 24]⟩
abbrev S1x32x32x1x24 : Shape := ⟨5, ![1, 32, 32, 1, 24]⟩
abbrev S128x1024x192 : Shape := ⟨3, ![128, 1024, 192]⟩

abbrev nBuf : Space → Nat
  | .hbm => 4
  | .vmem => 4
  | .smem => 0
  | _ => 0

abbrev bufTy : (tb : Table) → Fin (tcTables nBuf tb) → BufTy
  | .hbm, ⟨0, _⟩ => ⟨S128x256x256x3, .f32⟩
  | .hbm, ⟨1, _⟩ => ⟨S128x32x8x32x24, .f32⟩
  | .hbm, ⟨2, _⟩ => ⟨S128x32x32x8x24, .f32⟩
  | .hbm, ⟨3, _⟩ => ⟨S128x1024x192, .f32⟩
  | .local _ .vmem, ⟨0, _⟩ => ⟨S1x32x8x32x24, .f32⟩
  | .local _ .vmem, ⟨1, _⟩ => ⟨S1x32x8x32x24, .f32⟩
  | .local _ .vmem, ⟨2, _⟩ => ⟨S1x32x32x8x24, .f32⟩
  | .local _ .vmem, ⟨3, _⟩ => ⟨S1x32x32x8x24, .f32⟩
  | _, _ => ⟨S128x256x256x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x32x8x32x24 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x32x8x24 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S128x256x256x3_S128x32x8x32x24 : S128x256x256x3.ShapeCasts S128x32x8x32x24
  inb_S1x32x8x32x24_S1x32x1x32x24_0_0_0_0_0 : ∀ a, (![0, 0, 0, 0, 0] : Fin 5 → Nat) a + S1x32x1x32x24.size a ≤ S1x32x8x32x24.size a
  h_S1x32x1x32x24 : 0 < S1x32x1x32x24.numel
  shapeCasts_S1x32x1x32x24_S32x32x24 : S1x32x1x32x24.ShapeCasts S32x32x24
  inb_S1x32x32x8x24_S1x32x32x1x24_0_0_0_0_0 : ∀ a, (![0, 0, 0, 0, 0] : Fin 5 → Nat) a + S1x32x32x1x24.size a ≤ S1x32x32x8x24.size a
  h_S1x32x32x1x24 : 0 < S1x32x32x1x24.numel
  shapeCasts_S1x32x32x1x24_S32x32x24 : S1x32x32x1x24.ShapeCasts S32x32x24
  shapeCasts_S32x32x24_S1x32x32x1x24 : S32x32x24.ShapeCasts S1x32x32x1x24
  inb_S1x32x8x32x24_S1x32x1x32x24_0_0_1_0_0 : ∀ a, (![0, 0, 1, 0, 0] : Fin 5 → Nat) a + S1x32x1x32x24.size a ≤ S1x32x8x32x24.size a
  inb_S1x32x32x8x24_S1x32x32x1x24_0_0_0_1_0 : ∀ a, (![0, 0, 0, 1, 0] : Fin 5 → Nat) a + S1x32x32x1x24.size a ≤ S1x32x32x8x24.size a
  inb_S1x32x8x32x24_S1x32x1x32x24_0_0_2_0_0 : ∀ a, (![0, 0, 2, 0, 0] : Fin 5 → Nat) a + S1x32x1x32x24.size a ≤ S1x32x8x32x24.size a
  inb_S1x32x32x8x24_S1x32x32x1x24_0_0_0_2_0 : ∀ a, (![0, 0, 0, 2, 0] : Fin 5 → Nat) a + S1x32x32x1x24.size a ≤ S1x32x32x8x24.size a
  inb_S1x32x8x32x24_S1x32x1x32x24_0_0_3_0_0 : ∀ a, (![0, 0, 3, 0, 0] : Fin 5 → Nat) a + S1x32x1x32x24.size a ≤ S1x32x8x32x24.size a
  inb_S1x32x32x8x24_S1x32x32x1x24_0_0_0_3_0 : ∀ a, (![0, 0, 0, 3, 0] : Fin 5 → Nat) a + S1x32x32x1x24.size a ≤ S1x32x32x8x24.size a
  inb_S1x32x8x32x24_S1x32x1x32x24_0_0_4_0_0 : ∀ a, (![0, 0, 4, 0, 0] : Fin 5 → Nat) a + S1x32x1x32x24.size a ≤ S1x32x8x32x24.size a
  inb_S1x32x32x8x24_S1x32x32x1x24_0_0_0_4_0 : ∀ a, (![0, 0, 0, 4, 0] : Fin 5 → Nat) a + S1x32x32x1x24.size a ≤ S1x32x32x8x24.size a
  inb_S1x32x8x32x24_S1x32x1x32x24_0_0_5_0_0 : ∀ a, (![0, 0, 5, 0, 0] : Fin 5 → Nat) a + S1x32x1x32x24.size a ≤ S1x32x8x32x24.size a
  inb_S1x32x32x8x24_S1x32x32x1x24_0_0_0_5_0 : ∀ a, (![0, 0, 0, 5, 0] : Fin 5 → Nat) a + S1x32x32x1x24.size a ≤ S1x32x32x8x24.size a
  inb_S1x32x8x32x24_S1x32x1x32x24_0_0_6_0_0 : ∀ a, (![0, 0, 6, 0, 0] : Fin 5 → Nat) a + S1x32x1x32x24.size a ≤ S1x32x8x32x24.size a
  inb_S1x32x32x8x24_S1x32x32x1x24_0_0_0_6_0 : ∀ a, (![0, 0, 0, 6, 0] : Fin 5 → Nat) a + S1x32x32x1x24.size a ≤ S1x32x32x8x24.size a
  inb_S1x32x8x32x24_S1x32x1x32x24_0_0_7_0_0 : ∀ a, (![0, 0, 7, 0, 0] : Fin 5 → Nat) a + S1x32x1x32x24.size a ≤ S1x32x8x32x24.size a
  inb_S1x32x32x8x24_S1x32x32x1x24_0_0_0_7_0 : ∀ a, (![0, 0, 0, 7, 0] : Fin 5 → Nat) a + S1x32x32x1x24.size a ≤ S1x32x32x8x24.size a
  shapeCasts_S128x32x32x8x24_S128x1024x192 : S128x32x32x8x24.ShapeCasts S128x1024x192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x8x32x24.size a ≤ S128x32x8x32x24.size a
  hwx0_0 : ∀ i : grid0.Coords, EltTy.bits .f32 = 32 ∨ (Rect.block (s := S128x32x8x32x24) S1x32x8x32x24.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x32x8x24.size a ≤ S128x32x32x8x24.size a
  hwx0_1 : ∀ i : grid0.Coords, EltTy.bits .f32 = 32 ∨ (Rect.block (s := S128x32x32x8x24) S1x32x32x8x24.size (cc0_transform_1 i) (hinb0_1 i)).WholeWords (EltTy.packing .f32)

variable [Facts₀]

abbrev win0_0 : Pipeline.Window sig grid0 :=
  Pipeline.Window.ofSpec (Memref.whole main_v0) S1x32x8x32x24.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x32x32x8x24.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x256x256x3 : Shape := ⟨4, ![128, 256, 256, 3]⟩
abbrev S128x32x8x32x8x3 : Shape := ⟨6, ![128, 32, 8, 32, 8, 3]⟩
abbrev S128x32x32x8x8x3 : Shape := ⟨6, ![128, 32, 32, 8, 8, 3]⟩
abbrev S128x1024x192 : Shape := ⟨3, ![128, 1024, 192]⟩

abbrev nBuf : Space → Nat
  | .hbm => 4
  | .vmem => 0
  | .smem => 0
  | _ => 0

abbrev bufTy : (tb : Table) → Fin (tcTables nBuf tb) → BufTy
  | .hbm, ⟨0, _⟩ => ⟨S128x256x256x3, .f32⟩
  | .hbm, ⟨1, _⟩ => ⟨S128x32x8x32x8x3, .f32⟩
  | .hbm, ⟨2, _⟩ => ⟨S128x32x32x8x8x3, .f32⟩
  | .hbm, ⟨3, _⟩ => ⟨S128x1024x192, .f32⟩
  | _, _ => ⟨S128x256x256x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]

class Facts₀ : Prop where
  shapeCasts_S128x256x256x3_S128x32x8x32x8x3 : S128x256x256x3.ShapeCasts S128x32x8x32x8x3
  transposes_S128x32x8x32x8x3_S128x32x32x8x8x3_0_1_3_2_4_5 : S128x32x8x32x8x3.Transposes [0, 1, 3, 2, 4, 5] S128x32x32x8x8x3
  shapeCasts_S128x32x32x8x8x3_S128x1024x192 : S128x32x32x8x8x3.ShapeCasts S128x1024x192

variable [Facts₀]

class Facts : Prop extends Facts₀ where

variable [Facts]
-- ==== Proof.PatchBlock.lean ====
/-
  What the kernel body leaves in its output block.

  At one grid point the body holds one image as a block `x0` of shape [1, 32, 8, 32, 24] — (patch row, pixel row,
  patch column, 24 values) — and fills a block of shape [1, 32, 32, 8, 24] — (patch row, patch column, pixel row,
  24 values). For each pixel row `k = 0 … 7` it loads the slab `x0[0, :, k, :, :]`, drops and re-adds unit axes, and
  stores it as the slab `[0, :, :, k, :]` of the output block. The eight slabs tile the output block, and every one of
  them is the same function of the block index: the output block at `(0, gh, gw, r, e)` is `x0` at `(0, gh, r, gw, e)`.
-/
import proofs.«419368_j19533511262778_3_alg».proof.Proof.Gen.KernelIdeal.Frame
import Idealize.ShloMosaic.Lib.Pipeline.Value
import Idealize.ShloMosaic.Lib.ValueIdx

noncomputable section

namespace Cert.KernelIdeal.PatchBlock

open Idealize.ShloMosaic Idealize.ShloMosaic.ValueIdx Cert.KernelIdeal Cert.KernelIdeal.Gen

variable {F : FTy → Type} [FloatOps F]

/-- Exchange of a block index's axes 2 and 3: `(0, gh, gw, r, e) ↦ (0, gh, r, gw, e)`. -/
def swapBlk (y : S1x32x32x8x24.Idx) : S1x32x8x32x24.Idx := ix5 (y 0) (y 1) (y 3) (y 2) (y 4)

/-- One slab. The slab of `x0` at pixel row `k`, viewed as [32, 32, 24] and then as [1, 32, 32, 1, 24], read at a
    slab index `x = (0, gh, gw, 0, e)`, is `x0` at `(0, gh, k, gw, e)`: the axis exchange of the output block's index
    `(0, gh, gw, k, e)` under that slab. Both views keep the row-major position, and the unit axes contribute nothing
    to it. -/
theorem slab_at {Val : EltTy → Type} {e : EltTy} (k : Nat)
    (inbL : ∀ a, (![0, 0, k, 0, 0] : Fin 5 → Nat) a + S1x32x1x32x24.size a ≤ S1x32x8x32x24.size a)
    (inbS : ∀ a, (![0, 0, 0, k, 0] : Fin 5 → Nat) a + S1x32x32x1x24.size a ≤ S1x32x32x8x24.size a)
    (x0 : S1x32x8x32x24.Idx → Val e) (h1 : S1x32x1x32x24.ShapeCasts S32x32x24) (h2 : S32x32x24.ShapeCasts S1x32x32x1x24)
    (x : S1x32x32x1x24.Idx) :
    shapeCast S1x32x32x1x24
        (shapeCast S32x32x24 (View.ld x0 (Rect.unit (s := S1x32x8x32x24) ![0, 0, k, 0, 0] S1x32x1x32x24.size inbL)) h1) h2 x
      = x0 (swapBlk ((Rect.unit (s := S1x32x32x8x24) ![0, 0, 0, k, 0] S1x32x32x1x24.size inbS).emb x)) := by
  have hx0 : (x 0).val < 1 := (x 0).isLt
  have hx3 : (x 3).val < 1 := (x 3).isLt
  refine (shapeCast_apply _ h2 x (ix3 (x 1) (x 2) (x 4)) ?_).trans ?_
  · rw [Shape.rowMajor_val_three, Shape.rowMajor_val_five]
    show ((x 1).val * 32 + (x 2).val) * 24 + (x 4).val
      = ((((x 0).val * 32 + (x 1).val) * 32 + (x 2).val) * 1 + (x 3).val) * 24 + (x 4).val
    omega
  refine (shapeCast_apply _ h1 _ (ix5 ⟨0, Nat.one_pos⟩ (x 1) ⟨0, Nat.one_pos⟩ (x 2) (x 4)) ?_).trans ?_
  · rw [Shape.rowMajor_val_five, Shape.rowMajor_val_three]
    show ((((0 * 32 + (x 1).val) * 1 + 0) * 32 + (x 2).val) * 24 + (x 4).val) = ((x 1).val * 32 + (x 2).val) * 24 + (x 4).val
    omega
  show x0 _ = x0 _
  refine congrArg x0 (funext fun a => Fin.ext ?_)
  match a with
  | ⟨0, _⟩ => show 0 + 1 * 0 = 0 + 1 * (x 0).val; omega
  | ⟨1, _⟩ => rfl
  | ⟨2, _⟩ => show k + 1 * 0 = k + 1 * (x 3).val; omega
  | ⟨3, _⟩ => rfl
  | ⟨4, _⟩ => rfl

/-- THE OUTPUT BLOCK: the input block read through the exchange of axes 2 and 3. Each of the eight stores' payloads
    is that function under its slab (`slab_at`), and the slabs cover the block. -/
theorem out_eq (x0 : Vec F S1x32x8x32x24 .f32) : out0_1 x0 = fun y => x0 (swapBlk y) := by
  funext y
  unfold out0_1
  refine View.canon_apply_of_pieces (fun y => x0 (swapBlk y)) _ ?_ y (cover0_1 _ _ _ _ _ _ _ _ y)
  intro p hp
  simp only [List.mem_cons, List.mem_nil_iff, or_false] at hp
  rcases hp with rfl | rfl | rfl | rfl | rfl | rfl | rfl | rfl
  · exact fun x => slab_at 7 Facts₀.inb_S1x32x8x32x24_S1x32x1x32x24_0_0_7_0_0 Facts₀.inb_S1x32x32x8x24_S1x32x32x1x24_0_0_0_7_0 x0 _ _ x
  · exact fun x => slab_at 6 Facts₀.inb_S1x32x8x32x24_S1x32x1x32x24_0_0_6_0_0 Facts₀.inb_S1x32x32x8x24_S1x32x32x1x24_0_0_0_6_0 x0 _ _ x
  · exact fun x => slab_at 5 Facts₀.inb_S1x32x8x32x24_S1x32x1x32x24_0_0_5_0_0 Facts₀.inb_S1x32x32x8x24_S1x32x32x1x24_0_0_0_5_0 x0 _ _ x
  · exact fun x => slab_at 4 Facts₀.inb_S1x32x8x32x24_S1x32x1x32x24_0_0_4_0_0 Facts₀.inb_S1x32x32x8x24_S1x32x32x1x24_0_0_0_4_0 x0 _ _ x
  · exact fun x => slab_at 3 Facts₀.inb_S1x32x8x32x24_S1x32x1x32x24_0_0_3_0_0 Facts₀.inb_S1x32x32x8x24_S1x32x32x1x24_0_0_0_3_0 x0 _ _ x
  · exact fun x => slab_at 2 Facts₀.inb_S1x32x8x32x24_S1x32x1x32x24_0_0_2_0_0 Facts₀.inb_S1x32x32x8x24_S1x32x32x1x24_0_0_0_2_0 x0 _ _ x
  · exact fun x => slab_at 1 Facts₀.inb_S1x32x8x32x24_S1x32x1x32x24_0_0_1_0_0 Facts₀.inb_S1x32x32x8x24_S1x32x32x1x24_0_0_0_1_0 x0 _ _ x
  · exact fun x => slab_at 0 Facts₀.inb_S1x32x8x32x24_S1x32x1x32x24_0_0_0_0_0 Facts₀.inb_S1x32x32x8x24_S1x32x32x1x24_0_0_0_0_0 x0 _ _ x

end Cert.KernelIdeal.PatchBlock

end
-- ==== Proof.PatchIndex.lean ====
/-
  Non-overlapping 8 × 8 patch extraction, as a map of indices.

  A batch of images `x[b, h, w, ch]` of shape [128, 256, 256, 3] is cut into 32 × 32 patches of 8 × 8 pixels.
  Patch `n = gh·32 + gw` of image `b` is the row `[b, n, ·]` of the result, whose shape is [128, 1024, 192]; inside
  that row, position `d = r·24 + q·3 + ch` holds pixel `(r, q)` of the patch at channel `ch`:

      result[b, gh·32 + gw, r·24 + q·3 + ch] = x[b, gh·8 + r, gw·8 + q, ch].

  `src` is that map, from a result index to the image index it reads, and `patches x = x ∘ src` is the
  specification. Two arrangements of reshapes around an exchange of two axes are shown to be `patches`:
  * reshape to [128, 32, 8, 32, 8, 3], transpose the two middle axes, reshape to [128, 1024, 192];
  * reshape to [128, 32, 8, 32, 24] (pixel column and channel merged, 24 = 8·3), exchange axes 2 and 3 index by
    index, reshape to [128, 1024, 192].
  A reshape keeps an element's row-major position, a transpose permutes coordinates, and each position is a sum of
  products of coordinates with the literal extents, so every step is linear arithmetic with division by literals.
-/
import Idealize.ShloMosaic.Lib.ValueIdx
import Idealize.ShloMosaic.Lib.ValueIdxRank6
import Idealize.ShloMosaic.Lib.Pipeline.Value

namespace Cert.Patch

open Idealize.ShloMosaic Idealize.ShloMosaic.ValueIdx

/-- The images. -/
abbrev SImg : Shape := ⟨4, ![128, 256, 256, 3]⟩
/-- The patches, one row each. -/
abbrev SOut : Shape := ⟨3, ![128, 1024, 192]⟩
/-- Rows split into (patch row, pixel row), columns into (patch column, pixel column). -/
abbrev SSplit6 : Shape := ⟨6, ![128, 32, 8, 32, 8, 3]⟩
/-- The same with pixel row and patch column exchanged. -/
abbrev SSwap6 : Shape := ⟨6, ![128, 32, 32, 8, 8, 3]⟩
/-- Rows split as above; a row's columns and channels as (patch column, 24 values). -/
abbrev SSplit5 : Shape := ⟨5, ![128, 32, 8, 32, 24]⟩
/-- The same with pixel row and patch column exchanged. -/
abbrev SSwap5 : Shape := ⟨5, ![128, 32, 32, 8, 24]⟩

/-- The image index that result index `(b, n, d)` reads: image `b`, row `(n / 32)·8 + d / 24`, column
    `(n % 32)·8 + (d % 24) / 3`, channel `d % 3`. -/
def src (i : SOut.Idx) : SImg.Idx :=
  have hn : (i 1).val < 1024 := (i 1).isLt
  have hd : (i 2).val < 192 := (i 2).isLt
  ix4 (i 0) ⟨(i 1).val / 32 * 8 + (i 2).val / 24, by omega⟩ ⟨(i 1).val % 32 * 8 + (i 2).val % 24 / 3, by omega⟩
    ⟨(i 2).val % 3, by omega⟩

/-- Patch extraction: the result reads the images through `src`. -/
def patches {α : Type} (x : SImg.Idx → α) : SOut.Idx → α := fun i => x (src i)

/-- Exchange of axes 2 and 3 of a rank-5 index: `(b, gh, gw, r, e) ↦ (b, gh, r, gw, e)`. -/
def swap5 (j : SSwap5.Idx) : SSplit5.Idx := ix5 (j 0) (j 1) (j 3) (j 2) (j 4)

/-- Reshape, transpose the two middle axes of six, reshape: patch extraction. Result index `(b, n, d)` sits at
    `(b, n/32, n%32, d/24, (d%24)/3, d%3)` of the transposed array, which is `(b, n/32, d/24, n%32, (d%24)/3, d%3)`
    of the split one, whose row-major position is that of `src (b, n, d)` in the images. -/
theorem reshape_transpose_reshape {α : Type} (x : SImg.Idx → α) (h1 : SImg.ShapeCasts SSplit6)
    (h2 : SSplit6.Transposes [0, 1, 3, 2, 4, 5] SSwap6) (h3 : SSwap6.ShapeCasts SOut) :
    shapeCast SOut (transpose SSwap6 [0, 1, 3, 2, 4, 5] (shapeCast SSplit6 x h1) h2) h3 = patches x := by
  funext i
  have hn : (i 1).val < 1024 := (i 1).isLt
  have hd : (i 2).val < 192 := (i 2).isLt
  refine (shapeCast_apply _ h3 i
    (ix6 (i 0) ⟨(i 1).val / 32, by omega⟩ ⟨(i 1).val % 32, by omega⟩ ⟨(i 2).val / 24, by omega⟩
      ⟨(i 2).val % 24 / 3, by omega⟩ ⟨(i 2).val % 3, by omega⟩) ?_).trans ?_
  · rw [Shape.rowMajor_val_six, Shape.rowMajor_val_three]
    show ((((((i 0).val * 32 + (i 1).val / 32) * 32 + (i 1).val % 32) * 8 + (i 2).val / 24) * 8 + (i 2).val % 24 / 3) * 3
      + (i 2).val % 3) = ((i 0).val * 1024 + (i 1).val) * 192 + (i 2).val
    omega
  refine (transpose_apply [0, 1, 3, 2, 4, 5] _ h2 _
    (ix6 (i 0) ⟨(i 1).val / 32, by omega⟩ ⟨(i 2).val / 24, by omega⟩ ⟨(i 1).val % 32, by omega⟩
      ⟨(i 2).val % 24 / 3, by omega⟩ ⟨(i 2).val % 3, by omega⟩) (fun b => match b with
    | ⟨0, _⟩ => rfl
    | ⟨1, _⟩ => rfl
    | ⟨2, _⟩ => rfl
    | ⟨3, _⟩ => rfl
    | ⟨4, _⟩ => rfl
    | ⟨5, _⟩ => rfl)).trans ?_
  refine shapeCast_apply x h1 _ (src i) ?_
  rw [Shape.rowMajor_val_four, Shape.rowMajor_val_six]
  show (((i 0).val * 256 + ((i 1).val / 32 * 8 + (i 2).val / 24)) * 256 + ((i 1).val % 32 * 8 + (i 2).val % 24 / 3)) * 3
      + (i 2).val % 3
    = ((((((i 0).val * 32 + (i 1).val / 32) * 8 + (i 2).val / 24) * 32 + (i 1).val % 32) * 8 + (i 2).val % 24 / 3) * 3
      + (i 2).val % 3)
  omega

/-- Reshape with column and channel merged, exchange axes 2 and 3, reshape: patch extraction again. Result index
    `(b, n, d)` sits at `(b, n/32, n%32, d/24, d%24)` of the exchanged array, which is `(b, n/32, d/24, n%32, d%24)` of
    the split one; there `d % 24 = ((d%24)/3)·3 + d%3` is column-within-patch times 3 plus channel. -/
theorem reshape_swap_reshape {α : Type} (x : SImg.Idx → α) (h1 : SImg.ShapeCasts SSplit5) (h3 : SSwap5.ShapeCasts SOut) :
    shapeCast SOut (fun j : SSwap5.Idx => shapeCast SSplit5 x h1 (swap5 j)) h3 = patches x := by
  funext i
  have hn : (i 1).val < 1024 := (i 1).isLt
  have hd : (i 2).val < 192 := (i 2).isLt
  refine (shapeCast_apply _ h3 i
    (ix5 (i 0) ⟨(i 1).val / 32, by omega⟩ ⟨(i 1).val % 32, by omega⟩ ⟨(i 2).val / 24, by omega⟩
      ⟨(i 2).val % 24, by omega⟩) ?_).trans ?_
  · rw [Shape.rowMajor_val_five, Shape.rowMajor_val_three]
    show (((((i 0).val * 32 + (i 1).val / 32) * 32 + (i 1).val % 32) * 8 + (i 2).val / 24) * 24 + (i 2).val % 24)
      = ((i 0).val * 1024 + (i 1).val) * 192 + (i 2).val
    omega
  refine shapeCast_apply x h1 _ (src i) ?_
  rw [Shape.rowMajor_val_four, Shape.rowMajor_val_five]
  show (((i 0).val * 256 + ((i 1).val / 32 * 8 + (i 2).val / 24)) * 256 + ((i 1).val % 32 * 8 + (i 2).val % 24 / 3)) * 3
      + (i 2).val % 3
    = (((((i 0).val * 32 + (i 1).val / 32) * 8 + (i 2).val / 24) * 32 + (i 1).val % 32) * 24 + (i 2).val % 24)
  omega

end Cert.Patch
-- ==== Proof.PatchArray.lean ====
/-
  The kernel's output array after all grid points.

  Grid point `t` stages image `t` of the split array `A` (shape [128, 32, 8, 32, 24]) as its input block and writes
  its output block back as image `t` of the result array (shape [128, 32, 32, 8, 24]); both index maps send `t` to
  block `(t, 0, 0, 0, 0)`. The output block is the input block with axes 2 and 3 exchanged, so what point `t` writes
  back is block `t` of ONE whole-array function, `j ↦ A (j with axes 2 and 3 exchanged)`. The 128 blocks tile the
  result array (index `j` lies in block `j 0`), hence the array ends holding that function.
-/
import proofs.«419368_j19533511262778_3_alg».proof.Proof.PatchBlock
import proofs.«419368_j19533511262778_3_alg».proof.Proof.PatchIndex

set_option maxRecDepth 16384

noncomputable section

namespace Cert.KernelIdeal.PatchArray

open Idealize.ShloMosaic Idealize.ShloMosaic.TcCoe Idealize.ShloMosaic.ValueIdx Idealize.SL.Sem
open Cert.KernelIdeal Cert.KernelIdeal.Gen Cert.KernelIdeal.PatchBlock
open Idealize.ShloMosaic.Pipeline (Dat)

variable {F : FTy → Type} [FloatOps F]
variable (m : (ℓ : Loc nD τ sig) → Buf (Elt F) ℓ)

/-- The split array as the region finds it. -/
abbrev splitArr (c : Dev nD) : S128x32x8x32x24.Idx → Elt F .f32 := V m c main_v0

/-- The split array with axes 2 and 3 exchanged: what the result array will hold. -/
abbrev swappedArr (c : Dev nD) : S128x32x32x8x24.Idx → Elt F .f32 := fun j => splitArr m c (Cert.Patch.swap5 j)

/-- The printed index maps, decided over the grid: both windows' block at point `t` is `(t, 0, 0, 0, 0)`. -/
theorem idx_facts : ∀ t : Fin cfg0.N,
    win0_0.index t (0 : Fin 5) = t.val ∧ win0_0.index t (1 : Fin 5) = 0 ∧ win0_0.index t (2 : Fin 5) = 0
    ∧ win0_0.index t (3 : Fin 5) = 0 ∧ win0_0.index t (4 : Fin 5) = 0
    ∧ win0_1.index t (0 : Fin 5) = t.val ∧ win0_1.index t (1 : Fin 5) = 0 ∧ win0_1.index t (2 : Fin 5) = 0
    ∧ win0_1.index t (3 : Fin 5) = 0 ∧ win0_1.index t (4 : Fin 5) = 0 :=
  (by decide +kernel : ∀ t : Fin grid0.N, _)

/-- WHAT POINT `t` WRITES BACK is block `t` of the exchanged array: the output block is the input block through the
    exchange (`out_eq`), the input block is block `t` of the split array, and exchanging axes 2 and 3 commutes with
    moving to block `t`, since both blocks are whole on those axes. -/
theorem flushed_eq (c : Dev nD) (t : Fin cfg0.N) :
    (dats m 0 c).flushed 1 t = ((cfg0.win 1).blk t).view.read (Elt F) (swappedArr m c) := by
  show (cfg0.win 1).cut (grid0.coords t) ((dats m 0 c).after 1 t) = _
  rw [after0_1, out_eq]
  obtain ⟨a0, a1, a2, a3, a4, b0, b1, b2, b3, b4⟩ := idx_facts t
  funext y
  show V m c main_v0 (((cfg0.win 0).blk t).view.emb (swapBlk y)) = V m c main_v0 (Cert.Patch.swap5 (((cfg0.win 1).blk t).view.emb y))
  refine congrArg (V m c main_v0) (funext fun a => Fin.ext ?_)
  match a with
  | ⟨0, _⟩ => show win0_0.index t (0 : Fin 5) * 1 + 1 * (y 0).val = win0_1.index t (0 : Fin 5) * 1 + 1 * (y 0).val; omega
  | ⟨1, _⟩ => show win0_0.index t (1 : Fin 5) * 32 + 1 * (y 1).val = win0_1.index t (1 : Fin 5) * 32 + 1 * (y 1).val; omega
  | ⟨2, _⟩ => show win0_0.index t (2 : Fin 5) * 8 + 1 * (y 3).val = win0_1.index t (3 : Fin 5) * 8 + 1 * (y 3).val; omega
  | ⟨3, _⟩ => show win0_0.index t (3 : Fin 5) * 32 + 1 * (y 2).val = win0_1.index t (2 : Fin 5) * 32 + 1 * (y 2).val; omega
  | ⟨4, _⟩ => show win0_0.index t (4 : Fin 5) * 24 + 1 * (y 4).val = win0_1.index t (4 : Fin 5) * 24 + 1 * (y 4).val; omega

/-- An index of the result array is in point `t`'s block iff each coordinate is in the block's range on its axis. -/
theorem mem_blk (t : Fin cfg0.N) (i : S128x32x32x8x24.Idx) :
    i ∈ ((cfg0.win 1).blk t).view.set ↔ ∀ a : Fin 5, win0_1.index t a * S1x32x32x8x24.size a ≤ (i a).val
      ∧ (i a).val < win0_1.index t a * S1x32x32x8x24.size a + S1x32x32x8x24.size a := by
  show i ∈ ((View.whole main_v1).slice (win0_1.rect t)).set ↔ _
  rw [View.set_slice_whole, Rect.mem_set_unit]
  exact Iff.rfl

/-- The blocks tile the result array: index `i` is in the block of point `i 0`, which is written back. -/
theorem cover (i : S128x32x32x8x24.Idx) :
    ∃ t : Fin cfg0.N, (cfg0.win 1).flush t = true ∧ i ∈ ((cfg0.win 1).blk t).view.set := by
  have h0 : (i 0).val < 128 := (i 0).isLt
  have h1 : (i 1).val < 32 := (i 1).isLt
  have h2 : (i 2).val < 32 := (i 2).isLt
  have h3 : (i 3).val < 8 := (i 3).isLt
  have h4 : (i 4).val < 24 := (i 4).isLt
  let t : Fin cfg0.N := ⟨(i 0).val, by rw [show cfg0.N = 128 from N_0]; exact h0⟩
  obtain ⟨a0, a1, a2, a3, a4, b0, b1, b2, b3, b4⟩ := idx_facts t
  have ht : t.val = (i 0).val := rfl
  refine ⟨t, flush0_1 t, ?_⟩
  rw [mem_blk]
  intro a
  match a with
  | ⟨0, _⟩ => show win0_1.index t (0 : Fin 5) * 1 ≤ (i 0).val ∧ (i 0).val < win0_1.index t (0 : Fin 5) * 1 + 1; omega
  | ⟨1, _⟩ => show win0_1.index t (1 : Fin 5) * 32 ≤ (i 1).val ∧ (i 1).val < win0_1.index t (1 : Fin 5) * 32 + 32; omega
  | ⟨2, _⟩ => show win0_1.index t (2 : Fin 5) * 32 ≤ (i 2).val ∧ (i 2).val < win0_1.index t (2 : Fin 5) * 32 + 32; omega
  | ⟨3, _⟩ => show win0_1.index t (3 : Fin 5) * 8 ≤ (i 3).val ∧ (i 3).val < win0_1.index t (3 : Fin 5) * 8 + 8; omega
  | ⟨4, _⟩ => show win0_1.index t (4 : Fin 5) * 24 ≤ (i 4).val ∧ (i 4).val < win0_1.index t (4 : Fin 5) * 24 + 24; omega

/-- THE RESULT ARRAY after the run: the split array with axes 2 and 3 exchanged. -/
theorem final (c : Dev nD) : (dats m 0 c).arrAt 1 cfg0.N = swappedArr m c :=
  (dats m 0 c).arrAt_eq_of_cover 1 (swappedArr m c) (fun t _ => flushed_eq m c t) (cover)

end Cert.KernelIdeal.PatchArray

end
-- ==== Proof.PatchRun.lean ====
/-
  The idealized kernel's run, with its result named.

  @main reshapes the images [128, 256, 256, 3] to the split array [128, 32, 8, 32, 24], runs the region, and reshapes
  the region's result array [128, 32, 32, 8, 24] to [128, 1024, 192]. The region's result array ends holding the split
  array with axes 2 and 3 exchanged; so the program's result is reshape ∘ exchange ∘ reshape of the images, which
  is patch extraction (`Cert.Patch.reshape_swap_reshape`). The images themselves are never written.
-/
import proofs.«419368_j19533511262778_3_alg».proof.Proof.PatchArray
import Idealize.ShloMosaic.Lib.StableHlo.Run

set_option maxRecDepth 16384

noncomputable section

namespace Cert.KernelIdeal.PatchRun

open Idealize.ShloMosaic Idealize.ShloMosaic.TcCoe Idealize.ShloMosaic.ValueIdx Idealize.SL.Sem
open Cert.KernelIdeal Cert.KernelIdeal.Gen Cert.KernelIdeal.PatchArray

variable {F : FTy → Type} [FloatOps F]
variable (m : (ℓ : Loc nD τ sig) → Buf (Elt F) ℓ)

/-- The split array the region finds is the reshape of the images: the one host operation before the region. -/
theorem split_eq (c : Dev nD) : (V m c main_v0 : S128x32x8x32x24.Idx → Elt F .f32)
    = shapeCast S128x32x8x32x24 (m ((c : Thread nD τ).loc main_arg0)) Facts₀.shapeCasts_S128x256x256x3_S128x32x8x32x24 := by
  show StableHlo.after hostOps0 (fun b => m (c, b)) (Proc.devRef .tc main_v0) = _
  after_results
  rfl

/-- What the host operation after the region leaves in the program's result: the reshape of the region's result
    array, which is the exchanged split array; in all, patch extraction of the images. -/
theorem tail_eq (c : Dev nD) : Pipeline.afterTail₀ cfgs (dats m) 0 (V0 m) [hostOps1] c main_v2
    = Cert.Patch.patches (m ((c : Thread nD τ).loc main_arg0)) := by
  unfold Pipeline.afterTail₀
  show StableHlo.after hostOps1 _ (Proc.devRef .tc main_v2) = _
  after_results
  have hw : (Pipeline.withArrays (cfgs 0).spec c (V0 m c) (fun w => (dats m 0 c).arrAt w (cfgs 0).N)
        (Proc.devRef .tc main_v1) : S128x32x32x8x24.Idx → Elt F .f32)
      = fun j => shapeCast S128x32x8x32x24 (m ((c : Thread nD τ).loc main_arg0))
          Facts₀.shapeCasts_S128x256x256x3_S128x32x8x32x24 (Cert.Patch.swap5 j) := by
    refine ((Pipeline.withArrays_arr spec0 launch0.win.arr_inj c _ _ 1).trans (final m c)).trans ?_
    show (fun j => V m c main_v0 (Cert.Patch.swap5 j)) = _
    rw [split_eq]
  show shapeCast S128x1024x192 (Pipeline.withArrays (cfgs 0).spec c (V0 m c) (fun w => (dats m 0 c).arrAt w (cfgs 0).N)
      (Proc.devRef .tc main_v1) : S128x32x32x8x24.Idx → Elt F .f32) Facts₀.shapeCasts_S128x32x32x8x24_S128x1024x192 = _
  rw [hw]
  exact Cert.Patch.reshape_swap_reshape _ _ _

/-- THE RUN: every weakly fair execution of the idealized kernel terminates with the result at patch extraction
    of the images and the images unchanged. -/
theorem run (ρ : Dev nD → PrngReg) :
    θ_run defs (onTc (τ := τ) (main (F := F))) ⟨m, fun _ => 0, ρ⟩ (fun r => ∀ c : Dev nD,
      r.2.mem ((c.tc : Thread nD τ).loc main_v2) = Cert.Patch.patches (m ((c.tc : Thread nD τ).loc main_arg0))
      ∧ r.2.mem ((c.tc : Thread nD τ).loc main_arg0) = m ((c.tc : Thread nD τ).loc main_arg0)) :=
  (θ_run defs _ _).mono (fun r h c =>
      ⟨((h c).2 main_v2 (Pipeline.mem_restRefs_of main_v2 (by decide) (by decide))).trans (tail_eq m c),
       ((h c).2 main_arg0 (Pipeline.mem_restRefs_of main_arg0 (by decide) (by decide))).trans (W_main_arg0 m (dats m) c)⟩)
    (run_main m ρ)

end Cert.KernelIdeal.PatchRun

end
-- ==== Proof.lean ====
/-
  Non-overlapping 8 × 8 patch extraction from a batch of images [128, 256, 256, 3]: result row `[b, gh·32 + gw, ·]`
  holds patch `(gh, gw)` of image `b`, position `r·24 + q·3 + ch` of the row its pixel `(r, q)` at channel `ch`,

      result[b, gh·32 + gw, r·24 + q·3 + ch] = images[b, gh·8 + r, gw·8 + q, ch].

  The kernel reshapes the images to [128, 32, 8, 32, 24], exchanges axes 2 and 3 one image per grid point (eight slab
  copies per image), and reshapes to [128, 1024, 192]. The reference reshapes to [128, 32, 8, 32, 8, 3], transposes
  the two middle axes and reshapes to [128, 1024, 192]. Both move elements without computing on them, and both are
  the map above (`Cert.Patch.patches`), so the results agree element by element on every input; finiteness of the
  images is not used. No operation is rewritten by idealization, so the preservation claim is empty, and the three
  termination-and-unchanged-arguments claims are the programs' runs with the result forgotten.
-/
import proofs.«419368_j19533511262778_3_alg».proof.Defs
import proofs.«419368_j19533511262778_3_alg».proof.Proof.Gen.Kernel
import proofs.«419368_j19533511262778_3_alg».proof.Proof.Gen.Kernel.Skeleton
import proofs.«419368_j19533511262778_3_alg».proof.Proof.Gen.Kernel.Launch
import proofs.«419368_j19533511262778_3_alg».proof.Proof.Gen.Kernel.Points
import proofs.«419368_j19533511262778_3_alg».proof.Proof.Gen.Kernel.Frame
import proofs.«419368_j19533511262778_3_alg».proof.Proof.Gen.KernelIdeal
import proofs.«419368_j19533511262778_3_alg».proof.Proof.Gen.KernelIdeal.Skeleton
import proofs.«419368_j19533511262778_3_alg».proof.Proof.Gen.KernelIdeal.Launch
import proofs.«419368_j19533511262778_3_alg».proof.Proof.Gen.KernelIdeal.Points
import proofs.«419368_j19533511262778_3_alg».proof.Proof.Gen.KernelIdeal.Frame
import proofs.«419368_j19533511262778_3_alg».proof.Proof.Gen.ReferenceIdeal
import proofs.«419368_j19533511262778_3_alg».proof.Proof.Gen.Pre_finite_inputs
import proofs.«419368_j19533511262778_3_alg».proof.Proof.Gen.ReferenceIdeal.Run
import proofs.«419368_j19533511262778_3_alg».proof.Proof.Gen.ReferenceIdeal.Read
import proofs.«419368_j19533511262778_3_alg».proof.Proof.PatchRun
import Idealize.ShloMosaic.Adequacy
import Idealize.ShloMosaic.Init

noncomputable section

namespace Cert.Proof

open Idealize.ShloMosaic Idealize.SL.Sem

/-- The word-level kernel terminates and leaves the images as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- And the idealized reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the images, the idealized kernel ends with its result at patch extraction of the
    images, and the idealized reference with its result at reshape, transpose, reshape of the same images, which is
    patch extraction too (`Cert.Patch.reshape_transpose_reshape`). -/
theorem algebraic : Cert.algebraic_KernelIdeal_ReferenceIdeal := by
  intro m ρ m' ρ' _ hagree
  refine ⟨fun c => Cert.Patch.patches (m ((c.tc : Thread Cert.KernelIdeal.nD Cert.KernelIdeal.τ).loc Cert.KernelIdeal.main_arg0)),
    Cert.KernelIdeal.PatchRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [hagree c]
  exact Cert.Patch.reshape_transpose_reshape _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
